-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256x256 : Shape := ⟨3, ![256, 256, 256]⟩
abbrev S302 : Shape := ⟨1, ![302]⟩
abbrev S_ : Shape := ⟨0, ![]⟩

class Facts : Prop where
  bcast_S_S256x256x256 : S_.BroadcastsInDim S256x256x256 (![] : Fin 0 → Fin S256x256x256.rank)
  reducesTo_S256x256x256_S_d0_1_2 : S256x256x256.ReducesTo [0, 1, 2] S_
  h_S_ : 0 < S_.numel
  bcast_S_S302 : S_.BroadcastsInDim S302 (![] : Fin 0 → Fin S302.rank)
  reducesTo_S302_S_d0 : S302.ReducesTo [0] S_

variable [Facts]

def fn_part1 {F : FTy → Type} [FloatOps F] (main_v13 : IVec S_ 1) (main_v15 : IVec S256x256x256 1) (main_c_5 : IVec S_ 1) : IVec S_ 1 :=
  let main_v16 : IVec S_ 1 := (fun x v => Host.reduce IntOp.andi x v reducesTo_S256x256x256_S_d0_1_2 h_S_) main_v15 main_c_5
  let main_v17 : IVec S_ 1 := andi main_v13 main_v16
  main_v17

def fn {F : FTy → Type} [FloatOps F] (main_arg0 : IVec S256x256x256 32) (main_arg1 : FVec F S256x256x256 .f32) (main_arg2 : FVec F S256x256x256 .f32) (main_arg3 : FVec F S302 .f32) : IVec S_ 1 :=
  let main_v0 : FVec F S256x256x256 .f32 := Host.absf main_arg1
  let main_cst : FVec F S_ .f32 := constant S_ .f32 0x7F800000#32
  let main_v1 : FVec F S256x256x256 .f32 := broadcastInDim S256x256x256 ![] bcast_S_S256x256x256 main_cst
  let main_v2 : IVec S256x256x256 1 := cmpf .olt main_v0 main_v1
  let main_c : IVec S_ 1 := constantI S_ 1 1#1
  let main_v3 : IVec S_ 1 := (fun x v => Host.reduce IntOp.andi x v reducesTo_S256x256x256_S_d0_1_2 h_S_) main_v2 main_c
  let main_v4 : FVec F S256x256x256 .f32 := Host.absf main_arg2
  let main_cst_0 : FVec F S_ .f32 := constant S_ .f32 0x7F800000#32
  let main_v5 : FVec F S256x256x256 .f32 := broadcastInDim S256x256x256 ![] bcast_S_S256x256x256 main_cst_0
  let main_v6 : IVec S256x256x256 1 := cmpf .olt main_v4 main_v5
  let main_c_1 : IVec S_ 1 := constantI S_ 1 1#1
  let main_v7 : IVec S_ 1 := (fun x v => Host.reduce IntOp.andi x v reducesTo_S256x256x256_S_d0_1_2 h_S_) main_v6 main_c_1
  let main_v8 : IVec S_ 1 := andi main_v3 main_v7
  let main_v9 : FVec F S302 .f32 := Host.absf main_arg3
  let main_cst_2 : FVec F S_ .f32 := constant S_ .f32 0x7F800000#32
  let main_v10 : FVec F S302 .f32 := broadcastInDim S302 ![] bcast_S_S302 main_cst_2
  let main_v11 : IVec S302 1 := cmpf .olt main_v9 main_v10
  let main_c_3 : IVec S_ 1 := constantI S_ 1 1#1
  let main_v12 : IVec S_ 1 := (fun x v => Host.reduce IntOp.andi x v reducesTo_S302_S_d0 h_S_) main_v11 main_c_3
  let main_v13 : IVec S_ 1 := andi main_v8 main_v12
  let main_c_4 : IVec S_ 32 := constantI S_ 32 0#32
  let main_v14 : IVec S256x256x256 32 := broadcastInDim S256x256x256 ![] bcast_S_S256x256x256 main_c_4
  let main_v15 : IVec S256x256x256 1 := cmpi .sge main_arg0 main_v14
  let main_c_5 : IVec S_ 1 := constantI S_ 1 1#1
  fn_part1 (F := F) main_v13 main_v15 main_c_5
-- ==== Kernel.lean ====
abbrev S256x256x256 : Shape := ⟨3, ![256, 256, 256]⟩
abbrev S302 : Shape := ⟨1, ![302]⟩
abbrev S256x256x256x1 : Shape := ⟨4, ![256, 256, 256, 1]⟩
abbrev S_ : Shape := ⟨0, ![]⟩
abbrev S16x256x256 : Shape := ⟨3, ![16, 256, 256]⟩

abbrev nBuf : Space → Nat
  | .hbm => 11
  | .vmem => 8
  | .smem => 0
  | _ => 0

abbrev bufTy : (tb : Table) → Fin (tcTables nBuf tb) → BufTy
  | .hbm, ⟨0, _⟩ => ⟨S256x256x256, .i32⟩
  | .hbm, ⟨1, _⟩ => ⟨S256x256x256, .f32⟩
  | .hbm, ⟨2, _⟩ => ⟨S256x256x256, .f32⟩
  | .hbm, ⟨3, _⟩ => ⟨S302, .f32⟩
  | .hbm, ⟨4, _⟩ => ⟨S256x256x256x1, .i32⟩
  | .hbm, ⟨5, _⟩ => ⟨S256x256x256, .f32⟩
  | .hbm, ⟨6, _⟩ => ⟨S_, .i32⟩
  | .hbm, ⟨7, _⟩ => ⟨S256x256x256, .i32⟩
  | .hbm, ⟨8, _⟩ => ⟨S256x256x256, .i1⟩
  | .hbm, ⟨9, _⟩ => ⟨S256x256x256, .i1⟩
  | .hbm, ⟨10, _⟩ => ⟨S256x256x256, .f32⟩
  | .local _ .vmem, ⟨0, _⟩ => ⟨S16x256x256, .f32⟩
  | .local _ .vmem, ⟨1, _⟩ => ⟨S16x256x256, .f32⟩
  | .local _ .vmem, ⟨2, _⟩ => ⟨S16x256x256, .f32⟩
  | .local _ .vmem, ⟨3, _⟩ => ⟨S16x256x256, .f32⟩
  | .local _ .vmem, ⟨4, _⟩ => ⟨S16x256x256, .f32⟩
  | .local _ .vmem, ⟨5, _⟩ => ⟨S16x256x256, .f32⟩
  | .local _ .vmem, ⟨6, _⟩ => ⟨S16x256x256, .f32⟩
  | .local _ .vmem, ⟨7, _⟩ => ⟨S16x256x256, .f32⟩
  | _, _ => ⟨S256x256x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S16x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S256x256x256_S256x256x256x1_0_1_2 : S256x256x256.BroadcastsInDim S256x256x256x1 (![0, 1, 2] : Fin 3 → Fin S256x256x256x1.rank)
  bcast_S_S256x256x256 : S_.BroadcastsInDim S256x256x256 (![] : Fin 0 → Fin S256x256x256.rank)
  inb_S16x256x256_S16x256x256_0_0_0 : ∀ a, (![0, 0, 0] : Fin 3 → Nat) a + S16x256x256.size a ≤ S16x256x256.size a
  h_S16x256x256 : 0 < S16x256x256.numel
  shapeCasts_S16x256x256_S16x256x256 : S16x256x256.ShapeCasts S16x256x256
  gather_S302_S256x256x256x1_S256x256x256_n_0_n_n_0_3_1_wf : GatherDims.WF S302 S256x256x256x1 S256x256x256 [] [0] [] [0] [] 3 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x256.size a ≤ S256x256x256.size a
  hwx0_0 : ∀ i : grid0.Coords, EltTy.bits .f32 = 32 ∨ (Rect.block (s := S256x256x256) S16x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256x256.size a ≤ S256x256x256.size a
  hwx0_1 : ∀ i : grid0.Coords, EltTy.bits .f32 = 32 ∨ (Rect.block (s := S256x256x256) S16x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256x256.size a ≤ S256x256x256.size a
  hwx0_2 : ∀ i : grid0.Coords, EltTy.bits .f32 = 32 ∨ (Rect.block (s := S256x256x256) S16x256x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x256.size a ≤ S256x256x256.size a
  hwx0_3 : ∀ i : grid0.Coords, EltTy.bits .f32 = 32 ∨ (Rect.block (s := S256x256x256) S16x256x256.size (cc0_transform_3 i) (hinb0_3 i)).WholeWords (EltTy.packing .f32)

variable [Facts₀]

def gather_S302_S256x256x256x1_S256x256x256_n_0_n_n_0_3_1 : GatherDims S302 S256x256x256x1 S256x256x256 where
  offsetDims := []
  collapsedSliceDims := [0]
  operandBatchingDims := []
  startIndicesBatchingDims := []
  startIndexMap := [0]
  indexVectorDim := 3
  sliceSizes := ![1]
  wf := gather_S302_S256x256x256x1_S256x256x256_n_0_n_n_0_3_1_wf

abbrev win0_0 : Pipeline.Window sig grid0 :=
  Pipeline.Window.ofSpec (Memref.whole main_v0) S16x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x256x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S16x256x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x256x256 : Shape := ⟨3, ![256, 256, 256]⟩
abbrev S302 : Shape := ⟨1, ![302]⟩
abbrev S_ : Shape := ⟨0, ![]⟩
abbrev S256x256x256x1 : Shape := ⟨4, ![256, 256, 256, 1]⟩

abbrev nBuf : Space → Nat
  | .hbm => 25
  | .vmem => 0
  | .smem => 0
  | _ => 0

abbrev bufTy : (tb : Table) → Fin (tcTables nBuf tb) → BufTy
  | .hbm, ⟨0, _⟩ => ⟨S256x256x256, .i32⟩
  | .hbm, ⟨1, _⟩ => ⟨S256x256x256, .f32⟩
  | .hbm, ⟨2, _⟩ => ⟨S256x256x256, .f32⟩
  | .hbm, ⟨3, _⟩ => ⟨S302, .f32⟩
  | .hbm, ⟨4, _⟩ => ⟨S_, .i32⟩
  | .hbm, ⟨5, _⟩ => ⟨S256x256x256, .i32⟩
  | .hbm, ⟨6, _⟩ => ⟨S256x256x256, .i1⟩
  | .hbm, ⟨7, _⟩ => ⟨S_, .i32⟩
  | .hbm, ⟨8, _⟩ => ⟨S256x256x256, .i32⟩
  | .hbm, ⟨9, _⟩ => ⟨S256x256x256, .i32⟩
  | .hbm, ⟨10, _⟩ => ⟨S256x256x256, .i32⟩
  | .hbm, ⟨11, _⟩ => ⟨S256x256x256x1, .i32⟩
  | .hbm, ⟨12, _⟩ => ⟨S256x256x256, .f32⟩
  | .hbm, ⟨13, _⟩ => ⟨S256x256x256, .f32⟩
  | .hbm, ⟨14, _⟩ => ⟨S_, .f32⟩
  | .hbm, ⟨15, _⟩ => ⟨S256x256x256, .f32⟩
  | .hbm, ⟨16, _⟩ => ⟨S256x256x256, .i1⟩
  | .hbm, ⟨17, _⟩ => ⟨S_, .f32⟩
  | .hbm, ⟨18, _⟩ => ⟨S256x256x256, .f32⟩
  | .hbm, ⟨19, _⟩ => ⟨S256x256x256, .f32⟩
  | .hbm, ⟨20, _⟩ => ⟨S256x256x256, .f32⟩
  | .hbm, ⟨21, _⟩ => ⟨S_, .i32⟩
  | .hbm, ⟨22, _⟩ => ⟨S256x256x256, .i32⟩
  | .hbm, ⟨23, _⟩ => ⟨S256x256x256, .i1⟩
  | .hbm, ⟨24, _⟩ => ⟨S256x256x256, .i1⟩
  | _, _ => ⟨S256x256x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_call0_v0 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]

class Facts₀ : Prop where
  bcast_S_S256x256x256 : S_.BroadcastsInDim S256x256x256 (![] : Fin 0 → Fin S256x256x256.rank)
  bcast_S256x256x256_S256x256x256x1_0_1_2 : S256x256x256.BroadcastsInDim S256x256x256x1 (![0, 1, 2] : Fin 3 → Fin S256x256x256x1.rank)
  gather_S302_S256x256x256x1_S256x256x256_n_0_n_n_0_3_1_wf : GatherDims.WF S302 S256x256x256x1 S256x256x256 [] [0] [] [0] [] 3 ![1]

variable [Facts₀]

def gather_S302_S256x256x256x1_S256x256x256_n_0_n_n_0_3_1 : GatherDims S302 S256x256x256x1 S256x256x256 where
  offsetDims := []
  collapsedSliceDims := [0]
  operandBatchingDims := []
  startIndicesBatchingDims := []
  startIndexMap := [0]
  indexVectorDim := 3
  sliceSizes := ![1]
  wf := gather_S302_S256x256x256x1_S256x256x256_n_0_n_n_0_3_1_wf

class Facts : Prop extends Facts₀ where

variable [Facts]
-- ==== Proof.Voxel.lean ====
/-
  The specification, one voxel at a time. Given the intensity `s` gathered for the voxel's label, the texture `x`
  and the parenchyma `p`, both programs compute
      p · v,   where v = s · x, or 1 where s · x compares equal to zero.
  The definition is over any float instance: no law of arithmetic is needed to join the two sides, only that they
  read the same intensity.
-/
import Idealize.ShloMosaic.PureOps

noncomputable section

namespace Cert.Voxel

open Idealize.ShloMosaic

variable {F : FTy → Type} [FloatOps F]

/-- One voxel of the final volume. -/
abbrev voxel (s x p : F .f32) : F .f32 :=
  FloatOps.mulf p (Scalar.select (FloatOps.cmpf .oeq (FloatOps.mulf s x) (Scalar.ofBits .f32 0x00000000#32))
    (Scalar.ofBits .f32 0x3F800000#32) (FloatOps.mulf s x))

end Cert.Voxel

end
-- ==== Proof.KernelVolume.lean ====
/-
  The kernel's result volume as ONE function of the arrays its region finds.

  The region walks the leading axis in 16 slabs of 16 planes. At slab `t` the body loads the slab of the gathered
  intensities, of the texture and of the parenchyma, and stores, voxel by voxel,
      parenchyma · v,   v = intensity · texture, replaced by 1 where that product is exactly 0.
  Every window moves with the output window (same slab index on every axis), so slab `t` of the output is slab `t` of
  that voxelwise function of the three whole arrays; the 16 slabs tile the volume, hence the whole output array is it.
-/
import proofs.«425024_j26688926777587_2_alg».proof.Proof.Gen.KernelIdeal.Value
import proofs.«425024_j26688926777587_2_alg».proof.Proof.Voxel

noncomputable section

namespace Cert.KernelIdeal.Volume

open Cert.KernelIdeal Cert.KernelIdeal.Gen Cert.KernelIdeal.Value Idealize.ShloMosaic Idealize.ShloMosaic.TcCoe Idealize.SL.Sem
open Idealize.ShloMosaic.Pipeline (Dat)
open Cert.Voxel (voxel)

variable {F : FTy → Type} [FloatOps F]
variable (m : (ℓ : Loc nD τ sig) → Buf (Elt F) ℓ) (ρ : Dev nD → PrngReg)

/-- The voxel function over three whole volumes: intensities, texture, parenchyma. -/
abbrev blend (scal tex par : S256x256x256.Idx → Elt F .f32) : S256x256x256.Idx → Elt F .f32 :=
  fun i => voxel (scal i) (tex i) (par i)

theorem origin : (![0, 0, 0] : Fin 3 → Nat) = fun _ => 0 := funext fun a => by fin_cases a <;> rfl

/-- What the body leaves in the output slab, from the three loaded slabs: the voxel function at each slab index
    (the body's one store covers the slab; its shape cast is between equal shapes). -/
theorem slab_eq (x0 x1 x2 : Vec F S16x256x256 .f32) :
    out0_3 x0 x1 x2 = fun j => voxel (x0 j) (x1 j) (x2 j) := by
  unfold out0_3
  rw [View.canon_unit_zero origin]
  simp only [View.ld_unit_zero (S := S16x256x256) origin]
  rw [lay3_0_eq, shapeCast_self]
  rfl

/-- The printed index maps over the 16 grid points: each input window's slab index is the output window's, which
    is `(t, 0, 0)`. -/
theorem index_facts : ∀ t : Fin cfg0.N,
    (win0_0.index t (0 : Fin 3) = win0_3.index t (0 : Fin 3) ∧ win0_0.index t (1 : Fin 3) = win0_3.index t (1 : Fin 3)
      ∧ win0_0.index t (2 : Fin 3) = win0_3.index t (2 : Fin 3))
    ∧ (win0_1.index t (0 : Fin 3) = win0_3.index t (0 : Fin 3) ∧ win0_1.index t (1 : Fin 3) = win0_3.index t (1 : Fin 3)
      ∧ win0_1.index t (2 : Fin 3) = win0_3.index t (2 : Fin 3))
    ∧ (win0_2.index t (0 : Fin 3) = win0_3.index t (0 : Fin 3) ∧ win0_2.index t (1 : Fin 3) = win0_3.index t (1 : Fin 3)
      ∧ win0_2.index t (2 : Fin 3) = win0_3.index t (2 : Fin 3))
    ∧ win0_3.index t (0 : Fin 3) ≤ 15 ∧ win0_3.index t (1 : Fin 3) = 0 ∧ win0_3.index t (2 : Fin 3) = 0 :=
  (by decide +kernel : ∀ t : Fin grid0.N, _)

/-- Every slab of the leading axis is some grid point's. -/
theorem index_onto : ∀ q : Fin 16, ∃ t : Fin cfg0.N, win0_3.index t = ![q.val, 0, 0] :=
  (by decide +kernel : ∀ q : Fin 16, ∃ t : Fin grid0.N, win0_3.index t = ![q.val, 0, 0])

/-- What grid point `t` writes back is slab `t` of the voxel function of the three arrays as the region finds them. -/
theorem flushed_eq (c : Dev nD) (t : Fin cfg0.N) :
    (dats m 0 c).flushed 3 t
      = ((cfg0.win 3).blk t).view.read (Elt F) (blend (V m c main_v0) (V m c main_arg2) (V m c main_arg1)) := by
  show (cfg0.win 3).cut (grid0.coords t) ((dats m 0 c).after 3 t) = _
  rw [after0_3, slab_eq]
  obtain ⟨⟨a0, a1, a2⟩, ⟨b0, b1, b2⟩, ⟨c0, c1, c2⟩, -⟩ := index_facts t
  funext j
  show voxel (V m c main_v0 (((cfg0.win 0).blk t).view.emb j)) (V m c main_arg2 (((cfg0.win 1).blk t).view.emb j))
      (V m c main_arg1 (((cfg0.win 2).blk t).view.emb j))
    = voxel (V m c main_v0 (((cfg0.win 3).blk t).view.emb j)) (V m c main_arg2 (((cfg0.win 3).blk t).view.emb j))
      (V m c main_arg1 (((cfg0.win 3).blk t).view.emb j))
  have h0 : ((cfg0.win 0).blk t).view.emb j = ((cfg0.win 3).blk t).view.emb j := by
    funext a; apply Fin.ext
    match a with
    | ⟨0, _⟩ => show win0_0.index t (0 : Fin 3) * 16 + 1 * (j 0).val = win0_3.index t (0 : Fin 3) * 16 + 1 * (j 0).val; rw [a0]
    | ⟨1, _⟩ => show win0_0.index t (1 : Fin 3) * 256 + 1 * (j 1).val = win0_3.index t (1 : Fin 3) * 256 + 1 * (j 1).val; rw [a1]
    | ⟨2, _⟩ => show win0_0.index t (2 : Fin 3) * 256 + 1 * (j 2).val = win0_3.index t (2 : Fin 3) * 256 + 1 * (j 2).val; rw [a2]
  have h1 : ((cfg0.win 1).blk t).view.emb j = ((cfg0.win 3).blk t).view.emb j := by
    funext a; apply Fin.ext
    match a with
    | ⟨0, _⟩ => show win0_1.index t (0 : Fin 3) * 16 + 1 * (j 0).val = win0_3.index t (0 : Fin 3) * 16 + 1 * (j 0).val; rw [b0]
    | ⟨1, _⟩ => show win0_1.index t (1 : Fin 3) * 256 + 1 * (j 1).val = win0_3.index t (1 : Fin 3) * 256 + 1 * (j 1).val; rw [b1]
    | ⟨2, _⟩ => show win0_1.index t (2 : Fin 3) * 256 + 1 * (j 2).val = win0_3.index t (2 : Fin 3) * 256 + 1 * (j 2).val; rw [b2]
  have h2 : ((cfg0.win 2).blk t).view.emb j = ((cfg0.win 3).blk t).view.emb j := by
    funext a; apply Fin.ext
    match a with
    | ⟨0, _⟩ => show win0_2.index t (0 : Fin 3) * 16 + 1 * (j 0).val = win0_3.index t (0 : Fin 3) * 16 + 1 * (j 0).val; rw [c0]
    | ⟨1, _⟩ => show win0_2.index t (1 : Fin 3) * 256 + 1 * (j 1).val = win0_3.index t (1 : Fin 3) * 256 + 1 * (j 1).val; rw [c1]
    | ⟨2, _⟩ => show win0_2.index t (2 : Fin 3) * 256 + 1 * (j 2).val = win0_3.index t (2 : Fin 3) * 256 + 1 * (j 2).val; rw [c2]
  rw [h0, h1, h2]

/-- A voxel lies in grid point `t`'s output slab iff each coordinate lies in the slab's range on its axis. -/
theorem mem_slab (t : Fin cfg0.N) (i : S256x256x256.Idx) :
    i ∈ ((cfg0.win 3).blk t).view.set ↔ ∀ a : Fin 3, win0_3.index t a * S16x256x256.size a ≤ (i a).val
      ∧ (i a).val < win0_3.index t a * S16x256x256.size a + S16x256x256.size a := by
  show i ∈ ((View.whole main_v4).slice (win0_3.rect t)).set ↔ _
  rw [View.set_slice_whole, Rect.mem_set_unit]
  exact Iff.rfl

/-- The slabs tile the volume: voxel `i` lies in the slab of the point whose index is `i₀ / 16`. -/
theorem covered (i : S256x256x256.Idx) :
    ∃ t : Fin cfg0.N, (cfg0.win 3).flush t = true ∧ i ∈ ((cfg0.win 3).blk t).view.set := by
  have hi0 : (i 0).val < 256 := (i 0).isLt
  have hi1 : (i 1).val < 256 := (i 1).isLt
  have hi2 : (i 2).val < 256 := (i 2).isLt
  obtain ⟨t, ht⟩ := index_onto ⟨(i 0).val / 16, by omega⟩
  have q0 : win0_3.index t (0 : Fin 3) = (i 0).val / 16 := congrFun ht 0
  have q1 : win0_3.index t (1 : Fin 3) = 0 := congrFun ht 1
  have q2 : win0_3.index t (2 : Fin 3) = 0 := congrFun ht 2
  refine ⟨t, flush0_3 t, ?_⟩
  rw [mem_slab]
  intro a
  match a with
  | ⟨0, _⟩ => show win0_3.index t (0 : Fin 3) * 16 ≤ (i 0).val ∧ (i 0).val < win0_3.index t (0 : Fin 3) * 16 + 16; omega
  | ⟨1, _⟩ => show win0_3.index t (1 : Fin 3) * 256 ≤ (i 1).val ∧ (i 1).val < win0_3.index t (1 : Fin 3) * 256 + 256; omega
  | ⟨2, _⟩ => show win0_3.index t (2 : Fin 3) * 256 ≤ (i 2).val ∧ (i 2).val < win0_3.index t (2 : Fin 3) * 256 + 256; omega

/-- The output array after the run is the voxel function of the three arrays the region found. -/
theorem final (c : Dev nD) :
    (dats m 0 c).arrAt 3 cfg0.N = blend (V m c main_v0) (V m c main_arg2) (V m c main_arg1) :=
  (dats m 0 c).arrAt_eq_of_cover 3 _ (fun t _ => flushed_eq m c t) covered

end Cert.KernelIdeal.Volume

end
-- ==== Proof.LibTRef.lean ====
/-
  A typed reference's two transports — contents at the value's type to contents of the buffer and back — cancel.
-/
import Idealize.ShloMosaic.Lib.StableHlo

namespace Idealize.ShloMosaic.StableHlo.TRef

variable {sig : RefSig} {Val : EltTy → Type} {T : BufTy}

/-- Reading back through a typed reference what was put through it is the identity: both are the transport along
    the one equation `ref.ty = T`, in opposite directions. -/
theorem ofBuf_toBuf (x : TRef sig T) (v : T.Contents Val) : x.ofBuf (x.toBuf v) = v := by
  unfold TRef.ofBuf TRef.toBuf
  simp

/-- The other way round. -/
theorem toBuf_ofBuf (x : TRef sig T) (v : x.ref.ty.Contents Val) : x.toBuf (x.ofBuf v) = v := by
  unfold TRef.ofBuf TRef.toBuf
  simp

end Idealize.ShloMosaic.StableHlo.TRef
-- ==== Proof.KernelEntry.lean ====
/-
  What the kernel program's host operations leave before its region is entered: the gathered intensities
  (the table read at each label, the label read signed and clamped into the table by the gather itself) and the
  vessel mask (label ≠ 0). Both are functions of the argument arrays only.
-/
import proofs.«425024_j26688926777587_2_alg».proof.Proof.Gen.KernelIdeal.Frame
import Idealize.ShloMosaic.Lib.StableHlo.Run
import proofs.«425024_j26688926777587_2_alg».proof.Proof.LibTRef

noncomputable section

namespace Cert.KernelIdeal.Entry

open Cert.KernelIdeal Cert.KernelIdeal.Gen Idealize.ShloMosaic Idealize.ShloMosaic.TcCoe Idealize.SL.Sem
open Idealize.ShloMosaic.StableHlo

variable {F : FTy → Type} [FloatOps F]
variable (m : (ℓ : Loc nD τ sig) → Buf (Elt F) ℓ)

/-- The intensities the region finds: the gather of the table at the labels laid out as a column of start indices. -/
theorem scaling_eq (c : Dev nD) :
    (V m c main_v0 : S256x256x256.Idx → Elt F .f32)
      = Host.gather gather_S302_S256x256x256x1_S256x256x256_n_0_n_n_0_3_1 (m ((c : Thread nD τ).loc main_arg3))
          (broadcastInDim S256x256x256x1 ![0, 1, 2] bcast_S256x256x256_S256x256x256x1_0_1_2 (m ((c : Thread nD τ).loc main_arg0))) := by
  dsimp only [Gen.V]
  simp only [Gen.hostOps0, Gen.hostOps0_1, List.flatten_cons, List.flatten_nil, List.append_nil, List.cons_append,
    List.nil_append]
  after_results
  rw [TRef.ofBuf_toBuf]
  rfl

/-- The mask the region finds (and leaves): label ≠ 0, voxel by voxel. -/
theorem mask_eq (c : Dev nD) :
    (V m c main_v3 : S256x256x256.Idx → BitVec 1)
      = id (cmpi .ne (m ((c : Thread nD τ).loc main_arg0)) (broadcastInDim S256x256x256 ![] bcast_S_S256x256x256 (constantI S_ 32 0#32))) := by
  dsimp only [Gen.V]
  simp only [Gen.hostOps0, Gen.hostOps0_1, List.flatten_cons, List.flatten_nil, List.append_nil, List.cons_append,
    List.nil_append]
  after_results

end Cert.KernelIdeal.Entry

end
-- ==== Proof.KernelRun.lean ====
/-
  The kernel program's run with both results named as functions of the argument arrays: the final volume is the voxel
  function of (table gathered at the labels, texture, parenchyma), the mask is label ≠ 0, and the arguments end as
  they were launched.
-/
import proofs.«425024_j26688926777587_2_alg».proof.Proof.KernelVolume
import proofs.«425024_j26688926777587_2_alg».proof.Proof.KernelEntry

noncomputable section

namespace Cert.KernelIdeal.Whole

open Cert.KernelIdeal Cert.KernelIdeal.Gen Cert.KernelIdeal.Value Idealize.ShloMosaic Idealize.ShloMosaic.TcCoe Idealize.SL.Sem
open Cert.Voxel (voxel)

variable {F : FTy → Type} [FloatOps F]
variable (m : (ℓ : Loc nD τ sig) → Buf (Elt F) ℓ) (ρ : Dev nD → PrngReg)

/-- The intensity volume of a table and a label volume: the table gathered at the labels, each label read as a signed
    integer and clamped into the table by the gather. -/
abbrev intensities (lut : S302.Idx → Elt F .f32) (lab : S256x256x256.Idx → BitVec 32) : S256x256x256.Idx → Elt F .f32 :=
  Host.gather gather_S302_S256x256x256x1_S256x256x256_n_0_n_n_0_3_1 lut
    (broadcastInDim S256x256x256x1 ![0, 1, 2] bcast_S256x256x256_S256x256x256x1_0_1_2 lab)

/-- The final volume as a function of the four arguments. -/
abbrev volume (lab : S256x256x256.Idx → BitVec 32) (par tex : S256x256x256.Idx → Elt F .f32) (lut : S302.Idx → Elt F .f32) :
    S256x256x256.Idx → Elt F .f32 :=
  fun i => voxel (intensities lut lab i) (tex i) (par i)

/-- The vessel mask as a function of the labels. -/
abbrev mask (lab : S256x256x256.Idx → BitVec 32) : S256x256x256.Idx → BitVec 1 :=
  id (cmpi .ne lab (broadcastInDim S256x256x256 ![] bcast_S_S256x256x256 (constantI S_ 32 0#32)))

/-- Every weakly fair execution of the kernel program terminates with the final volume and the mask at those
    functions of the launch contents of the arguments, and the arguments unchanged. -/
theorem run : θ_run defs (onTc (τ := τ) (main (F := F))) ⟨m, fun _ => 0, ρ⟩ fun r => ∀ c : Dev nD,
      r.2.mem ((c : Thread nD τ).loc main_v4) = volume (m ((c : Thread nD τ).loc main_arg0)) (m ((c : Thread nD τ).loc main_arg1))
          (m ((c : Thread nD τ).loc main_arg2)) (m ((c : Thread nD τ).loc main_arg3))
      ∧ r.2.mem ((c : Thread nD τ).loc main_v3) = mask (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨
      (post3 m r h c).trans ((Volume.final m c).trans (by
        rw [Entry.scaling_eq m c, V_main_arg2 m c, V_main_arg1 m c])),
      ((h c).2 main_v3 (Pipeline.mem_restRefs_of main_v3 (by decide) (by decide))).trans (Entry.mask_eq m c),
      kept_main_arg0 m r h c,
      kept_main_arg1 m r h c,
      kept_main_arg2 m r h c,
      kept_main_arg3 m r h c⟩)
    (run_main m ρ)

end Cert.KernelIdeal.Whole

end
-- ==== Proof.LabelRange.lean ====
/-
  The label volume is an index into the 302-entry intensity table. The precondition's last conjunct says that
  every label is non-negative; this module reads that fact off the printed predicate, and shows what it is used for:
  on a non-negative label the negative-index rule `l < 0 ↦ l + 302` does not fire, so the wrapped label is the label.
-/
import proofs.«425024_j26688926777587_2_alg».proof.Pre_finite_inputs
import Idealize.ShloMosaic.Lib.ReduceAll
import Idealize.ShloMosaic.Lib.Pipeline.Value

noncomputable section

namespace Cert.LabelRange

open Idealize.ShloMosaic Cert.Pre_finite_inputs

/-- The zero word read as a signed integer is zero. -/
theorem toInt_zero32 : (0#32 : BitVec 32).toInt = 0 := by decide

/-- A label that is not negative is its own wrapped index: the comparison `l < 0` is false, so the select keeps
    `l` and never looks at `l + 302`. -/
theorem wrap_of_nonneg (l : BitVec 32) (h : 0 ≤ l.toInt) :
    Scalar.select (IntOp.cmpi .slt l 0#32) (IntOp.addi l 302#32) l = l := by
  have hc : ¬ IntOp.cmpi .slt l 0#32 = 1#1 := fun e => by
    have hlt := IntOp.cmpi_slt.1 e
    rw [toInt_zero32] at hlt
    omega
  exact if_neg hc

/-- The scalar result of the predicate has one index. -/
instance : Subsingleton S_.Idx := ⟨fun a b => funext fun d => d.elim0⟩

variable {F : FTy → Type} [FloatOps F] [Facts]

/-- Where the precondition holds, every label is non-negative as a signed integer: the predicate is a conjunction
    whose last member is `jnp.all (labels ≥ 0)`, an and-reduction over the whole volume of the signed comparison
    of each label with the zero word. -/
theorem labels_nonneg (lab : IVec S256x256x256 32) (par tex : FVec F S256x256x256 .f32) (lut : FVec F S302 .f32)
    (h : fn (F := F) lab par tex lut = fun _ => 1#1) (i : S256x256x256.Idx) : 0 ≤ (lab i).toInt := by
  have h0 := congrFun h (fun d => d.elim0)
  dsimp only [fn, fn_part1] at h0
  obtain ⟨-, h1⟩ := IntOp.andi_eq_one.1 h0
  have h2 := Host.reduce_andi_all _ _ _ _ _ h1 i
  have h3 := IntOp.cmpi_sge.1 h2
  rw [broadcastInDim_apply _ Facts.bcast_S_S256x256x256 _ i (fun d => d.elim0) (fun a => a.elim0)] at h3
  exact toInt_zero32 ▸ h3

end Cert.LabelRange

end
-- ==== Proof.ReferenceVolume.lean ====
/-
  The reference's final volume, voxel by voxel.

  The reference indexes the table the numpy way: a negative label `l` is first replaced by `l + 302`, then the
  table is gathered (the gather itself reads the index signed and clamps it into the table). Where every label is
  non-negative the replacement never happens, so the start indices are the labels themselves, and what follows the
  gather — intensity · texture, one where that is zero, times parenchyma — is the voxel function read at the index.
-/
import proofs.«425024_j26688926777587_2_alg».proof.Proof.Gen.ReferenceIdeal.Read
import proofs.«425024_j26688926777587_2_alg».proof.Proof.LabelRange
import proofs.«425024_j26688926777587_2_alg».proof.Proof.Voxel

noncomputable section

namespace Cert.ReferenceIdeal.Volume

open Cert.ReferenceIdeal Cert.ReferenceIdeal.Gen Cert.ReferenceIdeal.Read Idealize.ShloMosaic Idealize.ShloMosaic.TcCoe
open Cert.Voxel (voxel)

variable {F : FTy → Type} [FloatOps F]

/-- On non-negative labels the wrapped label volume is the label volume. -/
theorem wrapped_eq (lab : (⟨S256x256x256, .i32⟩ : BufTy).Contents (Elt F)) (h : ∀ i, 0 ≤ (lab i).toInt) :
    val_main_v4 (F := F) lab = lab := by
  funext i
  rw [val_main_v4_apply, val_main_v1_apply, val_main_v3_apply, val_main_v0_apply, val_main_c_apply, val_main_v2_apply,
    val_main_c_0_apply]
  exact Cert.LabelRange.wrap_of_nonneg (lab i) (h i)

/-- The reference's final volume on non-negative labels: the voxel function of the table gathered at the labels
    themselves, the texture and the parenchyma. -/
theorem volume_eq (lab : (⟨S256x256x256, .i32⟩ : BufTy).Contents (Elt F)) (par tex : (⟨S256x256x256, .f32⟩ : BufTy).Contents (Elt F))
    (lut : (⟨S302, .f32⟩ : BufTy).Contents (Elt F)) (h : ∀ i, 0 ≤ (lab i).toInt) :
    val_main_v11 (F := F) lab par tex lut
      = fun i => voxel (Host.gather gather_S302_S256x256x256x1_S256x256x256_n_0_n_n_0_3_1 lut
          (broadcastInDim S256x256x256x1 ![0, 1, 2] bcast_S256x256x256_S256x256x256x1_0_1_2 lab) i) (tex i) (par i) := by
  funext i
  rw [val_main_v11_apply, val_main_v10_apply, val_main_v9_apply, val_main_v7_apply, val_main_v8_apply, val_main_cst_apply,
    val_main_call0_v0_apply, val_main_cst_1_apply]
  unfold val_main_v6 val_main_v5
  rw [wrapped_eq lab h]

end Cert.ReferenceIdeal.Volume

end
-- ==== Proof.lean ====
/-
  The final volume of a vessel-labelled scan: parenchyma · v, where v = table[label] · texture, or 1 where that product is
  zero; and the vessel mask, label ≠ 0.

  The kernel program gathers table[label] on the host (the gather reads the label signed and clamps it into the
  302-entry table), computes the mask, and runs the voxelwise arithmetic in one region over 16 slabs of the leading axis.
  The reference gathers the numpy way — a negative label `l` is first replaced by `l + 302` — and then does the same
  arithmetic on the host. The two index rules differ exactly on the labels −301 … −1, so the claim is made where every
  label is non-negative (the precondition's last conjunct; the labels are indices into the table). There the wrapped
  label is the label, both programs gather the same intensities, and every later operation is the same operation on the
  same operands: the results are equal voxel by voxel with no law of arithmetic used, so the finiteness of the float
  inputs is never opened. The idealization rewrote nothing, so `preserves` has no content.

  Modules: Voxel (the voxel function), LabelRange (labels ≥ 0 from the precondition; the wrap rule on such a label),
  KernelVolume (the 16 slabs written back are the voxel function of the whole arrays), KernelEntry (what the host
  operations before the region leave), KernelRun (the kernel program's run, both results named), ReferenceVolume (the
  reference's volume read at a voxel).
-/
import proofs.«425024_j26688926777587_2_alg».proof.Defs
import proofs.«425024_j26688926777587_2_alg».proof.Proof.Gen.Kernel
import proofs.«425024_j26688926777587_2_alg».proof.Proof.Gen.Kernel.Skeleton
import proofs.«425024_j26688926777587_2_alg».proof.Proof.Gen.Kernel.Launch
import proofs.«425024_j26688926777587_2_alg».proof.Proof.Gen.Kernel.Points
import proofs.«425024_j26688926777587_2_alg».proof.Proof.Gen.Kernel.Frame
import proofs.«425024_j26688926777587_2_alg».proof.Proof.Gen.KernelIdeal
import proofs.«425024_j26688926777587_2_alg».proof.Proof.Gen.KernelIdeal.Skeleton
import proofs.«425024_j26688926777587_2_alg».proof.Proof.Gen.KernelIdeal.Launch
import proofs.«425024_j26688926777587_2_alg».proof.Proof.Gen.KernelIdeal.Points
import proofs.«425024_j26688926777587_2_alg».proof.Proof.Gen.KernelIdeal.Frame
import proofs.«425024_j26688926777587_2_alg».proof.Proof.Gen.ReferenceIdeal
import proofs.«425024_j26688926777587_2_alg».proof.Proof.Gen.Pre_finite_inputs
import proofs.«425024_j26688926777587_2_alg».proof.Proof.Gen.KernelIdeal.Value
import proofs.«425024_j26688926777587_2_alg».proof.Proof.Gen.ReferenceIdeal.Run
import proofs.«425024_j26688926777587_2_alg».proof.Proof.Gen.ReferenceIdeal.Read
import proofs.«425024_j26688926777587_2_alg».proof.Proof.KernelRun
import proofs.«425024_j26688926777587_2_alg».proof.Proof.ReferenceVolume
import Idealize.ShloMosaic.Adequacy
import Idealize.ShloMosaic.Init

noncomputable section

namespace Cert.Proof

open Idealize.ShloMosaic Idealize.ShloMosaic.TcCoe Idealize.SL.Sem

section Claims

/-- The word-level kernel program runs and keeps its arguments. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is host operations only: its frame is its run with the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- Both programs end with the voxel function of (table gathered at the labels, texture, parenchyma) and the mask
    label ≠ 0: the kernel program by its run, the reference because on non-negative labels its wrapped start indices
    are the labels. -/
theorem algebraic : Cert.algebraic_KernelIdeal_ReferenceIdeal := by
  intro m ρ m' ρ' hpre hagree
  refine ⟨_, _, Cert.KernelIdeal.Whole.run (F := Ideal) m ρ, ?_⟩
  refine (θ_run Cert.ReferenceIdeal.defs _ _).mono (fun _ h c => ⟨?_, ?_, (h c).2.2⟩)
    (Cert.ReferenceIdeal.Value.run (F := Ideal) m' ρ')
  · have hlab : ∀ i, 0 ≤ (m' ((c.tc : Thread Cert.ReferenceIdeal.nD Cert.ReferenceIdeal.τ).loc Cert.ReferenceIdeal.main_arg0) i).toInt := by
      rw [(hagree c).1]
      exact Cert.LabelRange.labels_nonneg (F := Ideal) _ _ _ _ (hpre c)
    rw [(h c).1, Cert.ReferenceIdeal.Read.val_main_v11_eq, Cert.ReferenceIdeal.Volume.volume_eq _ _ _ _ hlab,
      (hagree c).1, (hagree c).2.1, (hagree c).2.2.1, (hagree c).2.2.2]
    rfl
  · rw [(h c).2.1, (hagree c).1]

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
